-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S64x50000 : Shape := ⟨2, ![64, 50000]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S64x50000 : S_.BroadcastsInDim S64x50000 (![] : Fin 0 → Fin S64x50000.rank)
  reducesTo_S64x50000_S_d0_1 : S64x50000.ReducesTo [0, 1] S_

variable [Facts]

def fn {F : FTy → Type} [FloatOps F] (main_arg0 : FVec F S4096x64 .f32) (main_arg1 : FVec F S64x50000 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S64x50000 .f32 := Host.absf main_arg1
  let main_cst_0 : FVec F S_ .f32 := constant S_ .f32 0x7F800000#32
  let main_v5 : FVec F S64x50000 .f32 := broadcastInDim S64x50000 ![] bcast_S_S64x50000 main_cst_0
  let main_v6 : IVec S64x50000 1 := cmpf .olt main_v4 main_v5
  let main_c_1 : IVec S_ 1 := constantI S_ 1 1#1
  let main_v7 : IVec S_ 1 := (fun x v => Host.reduce IntOp.andi x v reducesTo_S64x50000_S_d0_1 h_S_) main_v6 main_c_1
  let main_v8 : IVec S_ 1 := andi main_v3 main_v7
  main_v8
-- ==== Kernel.lean ====
abbrev S4096x64 : Shape := ⟨2, ![4096, 64]⟩
abbrev S64x50000 : Shape := ⟨2, ![64, 50000]⟩
abbrev S_ : Shape := ⟨0, ![]⟩
abbrev S64x51200 : Shape := ⟨2, ![64, 51200]⟩
abbrev S4096x51200 : Shape := ⟨2, ![4096, 51200]⟩
abbrev S1024x64 : Shape := ⟨2, ![1024, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩
abbrev S4096x50000 : Shape := ⟨2, ![4096, 50000]⟩

abbrev nBuf : Space → Nat
  | .hbm => 7
  | .vmem => 6
  | .smem => 0
  | _ => 0

abbrev bufTy : (tb : Table) → Fin (tcTables nBuf tb) → BufTy
  | .hbm, ⟨0, _⟩ => ⟨S4096x64, .f32⟩
  | .hbm, ⟨1, _⟩ => ⟨S64x50000, .f32⟩
  | .hbm, ⟨2, _⟩ => ⟨S_, .i32⟩
  | .hbm, ⟨3, _⟩ => ⟨S_, .f32⟩
  | .hbm, ⟨4, _⟩ => ⟨S64x51200, .f32⟩
  | .hbm, ⟨5, _⟩ => ⟨S4096x51200, .f32⟩
  | .hbm, ⟨6, _⟩ => ⟨S4096x50000, .f32⟩
  | .local _ .vmem, ⟨0, _⟩ => ⟨S1024x64, .f32⟩
  | .local _ .vmem, ⟨1, _⟩ => ⟨S1024x64, .f32⟩
  | .local _ .vmem, ⟨2, _⟩ => ⟨S64x2048, .f32⟩
  | .local _ .vmem, ⟨3, _⟩ => ⟨S64x2048, .f32⟩
  | .local _ .vmem, ⟨4, _⟩ => ⟨S1024x2048, .f32⟩
  | .local _ .vmem, ⟨5, _⟩ => ⟨S1024x2048, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S64x50000_S64x51200_000_012000 : S64x50000.Pads (![0, 0] : Fin 2 → Nat) ![0, 1200] ![0, 0] S64x51200
  h_S_ : 0 < S_.numel
  inb_S1024x64_S1024x64_0_0 : ∀ a, (![0, 0] : Fin 2 → Nat) a + S1024x64.size a ≤ S1024x64.size a
  h_S1024x64 : 0 < S1024x64.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  reduces_S1024x64_S1024 : S1024x64.Reduces [1] S1024
  shapeCasts_S1024_S1024x1 : S1024.ShapeCasts S1024x1
  reduces_S64x2048_S2048 : S64x2048.Reduces [0] S2048
  shapeCasts_S2048_S1x2048 : S2048.ShapeCasts S1x2048
  bitsLt_bf16_f32 : FTy.bits .bf16 < FTy.bits .f32
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  slices_S4096x51200_S4096x50000_0_0 : S4096x51200.Slices ![0, 0] S4096x50000
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S4096x64.size a
  hwx0_0 : ∀ i : grid0.Coords, EltTy.bits .f32 = 32 ∨ (Rect.block (s := S4096x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x51200.size a
  hwx0_1 : ∀ i : grid0.Coords, EltTy.bits .f32 = 32 ∨ (Rect.block (s := S64x51200) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x51200.size a
  hwx0_2 : ∀ i : grid0.Coords, EltTy.bits .f32 = 32 ∨ (Rect.block (s := S4096x51200) S1024x2048.size (cc0_transform_2 i) (hinb0_2 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x64 : Shape := ⟨2, ![4096, 64]⟩
abbrev S64x50000 : Shape := ⟨2, ![64, 50000]⟩
abbrev S_ : Shape := ⟨0, ![]⟩
abbrev S4096 : Shape := ⟨1, ![4096]⟩
abbrev S4096x1 : Shape := ⟨2, ![4096, 1]⟩
abbrev S50000 : Shape := ⟨1, ![50000]⟩
abbrev S1x50000 : Shape := ⟨2, ![1, 50000]⟩
abbrev S4096x50000 : Shape := ⟨2, ![4096, 50000]⟩

abbrev nBuf : Space → Nat
  | .hbm => 22
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S64x50000, .f32⟩
  | .hbm, ⟨2, _⟩ => ⟨S4096x64, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S64x50000, .f32⟩
  | .hbm, ⟨7, _⟩ => ⟨S_, .f32⟩
  | .hbm, ⟨8, _⟩ => ⟨S50000, .f32⟩
  | .hbm, ⟨9, _⟩ => ⟨S1x50000, .f32⟩
  | .hbm, ⟨10, _⟩ => ⟨S4096x50000, .f32⟩
  | .hbm, ⟨11, _⟩ => ⟨S4096x50000, .f32⟩
  | .hbm, ⟨12, _⟩ => ⟨S4096x50000, .f32⟩
  | .hbm, ⟨13, _⟩ => ⟨S4096x50000, .f32⟩
  | .hbm, ⟨14, _⟩ => ⟨S_, .f32⟩
  | .hbm, ⟨15, _⟩ => ⟨S4096x50000, .f32⟩
  | .hbm, ⟨16, _⟩ => ⟨S4096x50000, .f32⟩
  | .hbm, ⟨17, _⟩ => ⟨S4096x50000, .f32⟩
  | .hbm, ⟨18, _⟩ => ⟨S_, .f32⟩
  | .hbm, ⟨19, _⟩ => ⟨S4096x50000, .f32⟩
  | .hbm, ⟨20, _⟩ => ⟨S4096x50000, .f32⟩
  | .hbm, ⟨21, _⟩ => ⟨S4096x50000, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S4096x64_S4096_d1 : S4096x64.ReducesTo [1] S4096
  h_S_ : 0 < S_.numel
  bcast_S4096_S4096x1_0 : S4096.BroadcastsInDim S4096x1 (![0] : Fin 1 → Fin S4096x1.rank)
  reducesTo_S64x50000_S50000_d0 : S64x50000.ReducesTo [0] S50000
  bcast_S50000_S1x50000_1 : S50000.BroadcastsInDim S1x50000 (![1] : Fin 1 → Fin S1x50000.rank)
  bcast_S4096x1_S4096x50000_0_1 : S4096x1.BroadcastsInDim S4096x50000 (![0, 1] : Fin 2 → Fin S4096x50000.rank)
  bcast_S1x50000_S4096x50000_0_1 : S1x50000.BroadcastsInDim S4096x50000 (![0, 1] : Fin 2 → Fin S4096x50000.rank)
  bcast_S_S4096x50000 : S_.BroadcastsInDim S4096x50000 (![] : Fin 0 → Fin S4096x50000.rank)
  dot_S4096x64_S64x50000_S4096x50000_1_0_0_1_n_n_wf : DotDims.WF S4096x64 S64x50000 S4096x50000 [1] [0] [0] [1] [] []

variable [Facts₀]

def dot_S4096x64_S64x50000_S4096x50000_1_0_0_1_n_n : DotDims S4096x64 S64x50000 S4096x50000 where
  lhsContracting := [1]
  rhsContracting := [0]
  lhsNonContracting := [0]
  rhsNonContracting := [1]
  lhsBatch := []
  rhsBatch := []
  wf := dot_S4096x64_S64x50000_S4096x50000_1_0_0_1_n_n_wf

class Facts : Prop extends Facts₀ where

variable [Facts]
-- ==== Proof.Dist.lean ====
/-
  The pairwise Euclidean distance, entry by entry, on the extended reals. For a matrix `x` of `B` rows of length `D`
  and a matrix `w` of `K` columns of length `D`, the entry at row `b` and column `k` is
      sqrt (max (|x_b|² + |w_k|² - 2 · ⟨x_b, w_k⟩) ε),
  the three terms being sums over the `D` coordinates, `2` and the floor `ε` the values of two fixed words.
  The entry depends on `x` only through its row `b` and on `w` only through its column `k` (`entry_congr`): that is
  what lets one formula serve a block of the arrays, the arrays padded with extra columns, and the arrays themselves.
-/
import Idealize.ShloMosaic.PureOps.Ideal
import Idealize.ShloMosaic.Lib.ValueIdx

noncomputable section

namespace Cert.Dist

open Idealize.ShloMosaic Idealize.ShloMosaic.ValueIdx

variable {B D K : ℕ}

/-- The squared norm of row `b` of `x`. -/
def rowSq (x : (⟨2, ![B, D]⟩ : Shape).Idx → EReal) (b : Fin B) : EReal :=
  ∑ d : Fin D, x (ix2 b d) * x (ix2 b d)

/-- The squared norm of column `k` of `w`. -/
def colSq (w : (⟨2, ![D, K]⟩ : Shape).Idx → EReal) (k : Fin K) : EReal :=
  ∑ d : Fin D, w (ix2 d k) * w (ix2 d k)

/-- The inner product of row `b` of `x` with column `k` of `w`. -/
def inner (x : (⟨2, ![B, D]⟩ : Shape).Idx → EReal) (w : (⟨2, ![D, K]⟩ : Shape).Idx → EReal) (b : Fin B) (k : Fin K) : EReal :=
  ∑ d : Fin D, x (ix2 b d) * w (ix2 d k)

/-- The distance between row `b` of `x` and column `k` of `w`: the square root of the expanded squared distance,
    floored at `ε`. -/
def entry (x : (⟨2, ![B, D]⟩ : Shape).Idx → EReal) (w : (⟨2, ![D, K]⟩ : Shape).Idx → EReal) (b : Fin B) (k : Fin K) : EReal :=
  Ideal.sqrt (max (rowSq x b + colSq w k - Ideal.ofBits .f32 0x40000000#32 * inner x w b k) (Ideal.ofBits .f32 0x2B8CBCCC#32))

/-- The entry is a function of one row of `x` and one column of `w`: two pairs of matrices, of any heights and
    widths, that agree on those give the same entry. -/
theorem entry_congr {B' K' : ℕ} (x : (⟨2, ![B, D]⟩ : Shape).Idx → EReal) (w : (⟨2, ![D, K]⟩ : Shape).Idx → EReal)
    (x' : (⟨2, ![B', D]⟩ : Shape).Idx → EReal) (w' : (⟨2, ![D, K']⟩ : Shape).Idx → EReal)
    (b : Fin B) (k : Fin K) (b' : Fin B') (k' : Fin K')
    (hx : ∀ d : Fin D, x (ix2 b d) = x' (ix2 b' d)) (hw : ∀ d : Fin D, w (ix2 d k) = w' (ix2 d k')) :
    entry x w b k = entry x' w' b' k' := by
  unfold entry rowSq colSq inner
  simp only [hx, hw]

end Cert.Dist

end
-- ==== Proof.LibColumnLayout.lean ====
/-
  Two keepdims layouts read at an index given by coordinates. A row-wise reduction kept as a column is a vector
  of length `a` cast to the shape `[a, 1]`; spreading that column over `b` columns is a broadcast from `[a, 1]`
  to `[a, b]`. At `(p, c)` the result is the vector's entry `p`: the cast keeps row-major positions and the
  broadcast reads coordinate `0` on the operand's unit axis.
-/
import Idealize.ShloMosaic.Lib.Pipeline.Value
import Idealize.ShloMosaic.Lib.ValueIdx

namespace Cert.LibColumnLayout

open Idealize.ShloMosaic Idealize.ShloMosaic.ValueIdx

variable {α : Type}

/-- A vector of length `a` cast to the column `[a, 1]` reads, at `(i, u)`, the vector at `i`, whatever the unit
    coordinate `u`: position `i * 1 + u = i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.Block.lean ====
/-
  One grid point of the kernel, read at an entry. The body loads a block `x0` of 1024 rows of `x` and a block `x1` of
  2048 columns of the padded `w`, and stores sqrt (max (a + c - 2 · p) ε) where, at `(p, q)` of the block,
  `a` is the lane sum of `x0 * x0` along row `p` (kept as a column and spread over the columns),
  `c` the sum of `x1 * x1` down column `q` (kept as a row and spread over the rows), and
  `p` the matrix product of the two blocks into a zero accumulator, their narrowing to bf16 the identity on the
  extended reals. So the stored value at `(p, q)` is the distance entry of the two BLOCKS at `(p, q)`.
-/
import proofs.«102694_j79671643341035_1_alg».proof.Proof.Gen.KernelIdeal.Skeleton
import proofs.«102694_j79671643341035_1_alg».proof.Proof.Dist
import proofs.«102694_j79671643341035_1_alg».proof.Proof.LibColumnLayout
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-- The lane sum of `x0 * x0` along axis 1, cast to a column and broadcast over the columns, is at `(p, q)` the squared
    norm of row `p`. -/
theorem rowTerm (x0 : FVec Ideal S1024x64 .f32) (h : S1024x64.Reduces [1] S1024) (hφ : FKind.Formats .f32)
    (hacc : (0x00000000#32 : BitVec (FTy.bits .f32)) = FKind.add.neutral .f32 hφ)
    (hc : S1024.ShapeCasts S1024x1) (hb : S1024x1.Broadcasts S1024x2048) (p : Fin 1024) (q : Fin 2048) :
    broadcastTo S1024x2048 (shapeCast S1024x1 (multiReduction (F := Ideal) .add [1] S1024 (mulf (F := Ideal) x0 x0) 0x00000000#32 h hφ hacc) hc) hb (ix2 p q)
      = Cert.Dist.rowSq x0 p := by
  refine (Cert.LibColumnLayout.broadcastTo_a1_ab_apply _ hb p q).trans ?_
  refine (Cert.LibColumnLayout.shapeCast_a_a1_apply _ hc p 0).trans ?_
  refine (Ideal.multiReduction_add_single (mulf x0 x0) 0x00000000#32 h hφ hacc (ix1 p)).trans ?_
  unfold Cert.Dist.rowSq
  refine Finset.sum_congr rfl fun d _ => ?_
  have e : h.lift (ix1 p) d = ix2 p d := funext fun a => Fin.ext (by match a with | ⟨0, _⟩ => rfl | ⟨1, _⟩ => rfl)
  show x0 (h.lift (ix1 p) d) * x0 (h.lift (ix1 p) d) = _
  rw [e]
  rfl

/-- The sum of `x1 * x1` along axis 0, cast to a row and broadcast over the rows, is at `(p, q)` the squared norm of
    column `q`. -/
theorem colTerm (x1 : FVec Ideal S64x2048 .f32) (h : S64x2048.Reduces [0] S2048) (hφ : FKind.Formats .f32)
    (hacc : (0x00000000#32 : BitVec (FTy.bits .f32)) = FKind.add.neutral .f32 hφ)
    (hc : S2048.ShapeCasts S1x2048) (hb : S1x2048.Broadcasts S1024x2048) (p : Fin 1024) (q : Fin 2048) :
    broadcastTo S1024x2048 (shapeCast S1x2048 (multiReduction (F := Ideal) .add [0] S2048 (mulf (F := Ideal) x1 x1) 0x00000000#32 h hφ hacc) hc) hb (ix2 p q)
      = Cert.Dist.colSq x1 q := by
  refine (broadcastTo_1b_ab_apply _ hb p q).trans ?_
  refine (shapeCast_a_1a_apply _ hc 0 q).trans ?_
  refine (Ideal.multiReduction_add_single (mulf x1 x1) 0x00000000#32 h hφ hacc (ix1 q)).trans ?_
  unfold Cert.Dist.colSq
  refine Finset.sum_congr rfl fun d _ => ?_
  have e : h.lift (ix1 q) d = ix2 d q := funext fun a => Fin.ext (by match a with | ⟨0, _⟩ => rfl | ⟨1, _⟩ => rfl)
  show x1 (h.lift (ix1 q) d) * x1 (h.lift (ix1 q) d) = _
  rw [e]
  rfl

/-! The product's operand indices: the left operand is read at (row of the output, contracted coordinate), the right at
    (contracted coordinate, column of the output). -/

theorem lhs_blk_0 (i : S1024x2048.Idx) (q : dot_S1024x64_S64x2048_S1024x2048_1_0_0_1_n_n.contr.Idx) :
    (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem lhs_blk_1 (i : S1024x2048.Idx) (q : dot_S1024x64_S64x2048_S1024x2048_1_0_0_1_n_n.contr.Idx) :
    (dot_S1024x64_S64x2048_S1024x2048_1_0_0_1_n_n.lhsIdx i q 1).val = (q ⟨0, by decide⟩).val :=
  dot_S1024x64_S64x2048_S1024x2048_1_0_0_1_n_n.lhsIdx_val_of_single rfl i q
theorem rhs_blk_0 (i : S1024x2048.Idx) (q : dot_S1024x64_S64x2048_S1024x2048_1_0_0_1_n_n.contr.Idx) :
    (dot_S1024x64_S64x2048_S1024x2048_1_0_0_1_n_n.rhsIdx i q 0).val = (q ⟨0, by decide⟩).val :=
  dot_S1024x64_S64x2048_S1024x2048_1_0_0_1_n_n.rhsIdx_val_of_single rfl i q
theorem rhs_blk_1 (i : S1024x2048.Idx) (q : dot_S1024x64_S64x2048_S1024x2048_1_0_0_1_n_n.contr.Idx) :
    (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- The product of the two blocks, narrowed to bf16 (no change on the extended reals), into a zero accumulator is at
    `(p, q)` the inner product of row `p` of `x0` with column `q` of `x1`. -/
theorem dotTerm (x0 : FVec Ideal S1024x64 .f32) (x1 : FVec Ideal S64x2048 .f32) (hb : FTy.bits .bf16 < FTy.bits .f32)
    (p : Fin 1024) (q : Fin 2048) :
    matmul (F := Ideal) dot_S1024x64_S64x2048_S1024x2048_1_0_0_1_n_n none (truncf (F := Ideal) .bf16 x0 hb) (truncf (F := Ideal) .bf16 x1 hb) (constant (F := Ideal) S1024x2048 .f32 0x00000000#32) (ix2 p q)
      = Cert.Dist.inner x0 x1 p q := by
  refine (Ideal.matmul_constant_zero_apply dot_S1024x64_S64x2048_S1024x2048_1_0_0_1_n_n none (truncf .bf16 x0 hb) (truncf .bf16 x1 hb) (ix2 p q)).trans ?_
  rw [← Equiv.sum_comp (contrEquiv1 dot_S1024x64_S64x2048_S1024x2048_1_0_0_1_n_n 64 rfl rfl).symm]
  unfold Cert.Dist.inner
  refine Finset.sum_congr rfl fun k _ => ?_
  have hk := contrEquiv1_symm_val dot_S1024x64_S64x2048_S1024x2048_1_0_0_1_n_n 64 rfl rfl k
  have el : dot_S1024x64_S64x2048_S1024x2048_1_0_0_1_n_n.lhsIdx (ix2 p q) ((contrEquiv1 dot_S1024x64_S64x2048_S1024x2048_1_0_0_1_n_n 64 rfl rfl).symm k) = ix2 p k := funext fun a => Fin.ext (by
    match a with
    | ⟨0, _⟩ => exact lhs_blk_0 _ _
    | ⟨1, _⟩ => exact (lhs_blk_1 _ _).trans hk)
  have er : dot_S1024x64_S64x2048_S1024x2048_1_0_0_1_n_n.rhsIdx (ix2 p q) ((contrEquiv1 dot_S1024x64_S64x2048_S1024x2048_1_0_0_1_n_n 64 rfl rfl).symm k) = ix2 k q := funext fun a => Fin.ext (by
    match a with
    | ⟨0, _⟩ => exact (rhs_blk_0 _ _).trans hk
    | ⟨1, _⟩ => exact rhs_blk_1 _ _)
  show x0 (dot_S1024x64_S64x2048_S1024x2048_1_0_0_1_n_n.lhsIdx (ix2 p q) ((contrEquiv1 dot_S1024x64_S64x2048_S1024x2048_1_0_0_1_n_n 64 rfl rfl).symm k)) * x1 (dot_S1024x64_S64x2048_S1024x2048_1_0_0_1_n_n.rhsIdx (ix2 p q) ((contrEquiv1 dot_S1024x64_S64x2048_S1024x2048_1_0_0_1_n_n 64 rfl rfl).symm k)) = _
  rw [el, er]

/-- WHAT THE BODY STORES, at `(p, q)`: the distance between row `p` of the block of `x` and column `q` of the block of
    the padded `w`. -/
theorem pay_apply (x0 : Vec Ideal S1024x64 .f32) (x1 : Vec Ideal S64x2048 .f32) (p : Fin 1024) (q : Fin 2048) :
    k0_pay1 (F := Ideal) x0 x1 (ix2 p q) = Cert.Dist.entry x0 x1 p q := by
  unfold k0_pay1
  refine Eq.trans ?_ (congrArg (fun v => Cert.Dist.entry x0 v p q) (shapeCast_self x1 shapeCasts_S64x2048_S64x2048))
  unfold Cert.Dist.entry
  exact congrArg Ideal.sqrt (congrArg₂ max (congrArg₂ (· - ·)
    (congrArg₂ (· + ·) (rowTerm x0 _ _ _ _ _ p q) (colTerm _ _ _ _ _ _ p q))
    (congrArg (Ideal.ofBits .f32 0x40000000#32 * ·) (dotTerm x0 _ _ p q))) rfl)

end Cert.KernelIdeal.Block

end
-- ==== Proof.Whole.lean ====
/-
  From one grid point to the whole result. The grid has 4 × 25 points; point `(i, j)` reads rows
  `1024 i … 1024 i + 1023` of `x` and columns `2048 j … 2048 j + 2047` of the weight padded with 1200 zero columns to
  width 51200, and writes block `(i, j)` of a 4096 × 51200 array. An entry of the distance matrix depends on one row of
  `x` and one column of the weight only, so what a point writes is the block of ONE matrix: the distances between the rows
  of `x` and the columns of the PADDED weight. The 100 blocks tile the array, so it ends holding that matrix. The
  host then keeps columns `0 … 49999`, where the padded weight is the weight: the result is the distance matrix of
  `x` and the weight.
-/
import proofs.«102694_j79671643341035_1_alg».proof.Proof.Gen.KernelIdeal.Frame
import proofs.«102694_j79671643341035_1_alg».proof.Proof.Block
import Idealize.ShloMosaic.Lib.Pipeline.Value
import Idealize.ShloMosaic.Lib.KernelVsHost
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- `x` as the region finds it. -/
abbrev xarr (c : Dev nD) : Vec Ideal S4096x64 .f32 := V m c main_arg0
/-- The padded weight as the region finds it. -/
abbrev wpad (c : Dev nD) : Vec Ideal S64x51200 .f32 := V m c main_v0

/-- The distances between the rows of `x` and the columns of the padded weight. -/
def padded (c : Dev nD) : Vec Ideal S4096x51200 .f32 := fun i =>
  Cert.Dist.entry (xarr m c) (wpad m c) ⟨(i 0).val, (i 0).isLt⟩ ⟨(i 1).val, (i 1).isLt⟩

/-- The distances between the rows of `x` and the columns of the weight, as launched. -/
def result (c : Dev nD) : Vec Ideal S4096x50000 .f32 := fun i =>
  Cert.Dist.entry (m ((c : Thread nD τ).loc main_arg0)) (m ((c : Thread nD τ).loc main_arg1)) ⟨(i 0).val, (i 0).isLt⟩ ⟨(i 1).val, (i 1).isLt⟩

/-- What the body stores at `y` of its block, when the block of `x` holds on row `y 0` what `X` holds on row `i 0` and
    the block of the weight holds on column `y 1` what `Wp` holds on column `i 1`: the entry `i` of the distance matrix of
    `X` and `Wp`. -/
theorem pay_at (X : Vec Ideal S4096x64 .f32) (Wp : Vec Ideal S64x51200 .f32) (x0 : Vec Ideal S1024x64 .f32) (x1 : Vec Ideal S64x2048 .f32)
    (y : S1024x2048.Idx) (i : S4096x51200.Idx)
    (hx : ∀ d : Fin 64, x0 (ix2 (⟨(y 0).val, (y 0).isLt⟩ : Fin 1024) d) = X (ix2 (⟨(i 0).val, (i 0).isLt⟩ : Fin 4096) d))
    (hw : ∀ d : Fin 64, x1 (ix2 d (⟨(y 1).val, (y 1).isLt⟩ : Fin 2048)) = Wp (ix2 d (⟨(i 1).val, (i 1).isLt⟩ : Fin 51200))) :
    k0_pay1 (F := Ideal) x0 x1 y = Cert.Dist.entry X Wp ⟨(i 0).val, (i 0).isLt⟩ ⟨(i 1).val, (i 1).isLt⟩ := by
  obtain ⟨p, q, rfl⟩ : ∃ (p : Fin 1024) (q : Fin 2048), y = ix2 p q := ⟨y 0, y 1, eq_ix2 y⟩
  exact (Cert.KernelIdeal.Block.pay_apply x0 x1 p q).trans (Cert.Dist.entry_congr x0 x1 X Wp p q _ _ hx hw)

/-- The index maps over the grid: the block of `x` moves with the output's rows and stays on column block 0, the block
    of the weight moves with the output's columns and stays on row block 0. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every block of the 4 × 25 tiling is some point's. -/
theorem idx_onto : ∀ (q0 : Fin 4) (q1 : Fin 25), ∃ t : Fin cfg0.N, win0_2.index t = ![q0.val, q1.val] :=
  (by decide +kernel : ∀ (q0 : Fin 4) (q1 : Fin 25), ∃ t : Fin grid0.N, win0_2.index t = ![q0.val, q1.val])

/-- WHAT POINT `t` WRITES BACK is block `t` of the distance matrix of `x` and the padded weight. -/
theorem flushed_eq (c : Dev nD) (t : Fin cfg0.N) :
    (dats m 0 c).flushed 2 t = ((cfg0.win 2).blk t).view.read (Elt Ideal) (padded m c) := by
  show (cfg0.win 2).cut (grid0.coords t) ((dats m 0 c).after 2 t) = _
  rw [after0_2]
  unfold out0_2
  rw [View.canon_unit_zero hz]
  simp only [View.ld_unit_zero (S := S1024x64) hz, View.ld_unit_zero (S := S64x2048) hz]
  obtain ⟨e0, e1, e2, e3⟩ := idx_facts t
  funext j
  refine pay_at (xarr m c) (wpad m c) (iblk m c 0 t) (iblk m c 1 t) j (((cfg0.win 2).blk t).view.emb j) ?_ ?_
  · intro d
    show V m c main_arg0 (((cfg0.win 0).blk t).view.emb (ix2 (⟨(j 0).val, (j 0).isLt⟩ : Fin 1024) d)) = V m c main_arg0 _
    refine congrArg (V m c main_arg0) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 64 + 1 * d.val = d.val; omega
  · intro d
    show V m c main_v0 (((cfg0.win 1).blk t).view.emb (ix2 d (⟨(j 1).val, (j 1).isLt⟩ : Fin 2048))) = V m c main_v0 _
    refine congrArg (V m c main_v0) (funext fun a => Fin.ext ?_)
    match a with
    | ⟨0, _⟩ => show win0_1.index t (0 : Fin 2) * 64 + 1 * d.val = d.val; omega
    | ⟨1, _⟩ => show win0_1.index t (1 : Fin 2) * 2048 + 1 * (j 1).val = win0_2.index t (1 : Fin 2) * 2048 + 1 * (j 1).val; omega

/-- An index of the array is in point `t`'s block iff each coordinate is in the block's range on its axis. -/
theorem mem_blk (t : Fin cfg0.N) (i : S4096x51200.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v1).slice (win0_2.rect t)).set ↔ _
  rw [View.set_slice_whole, Rect.mem_set_unit]
  exact Iff.rfl

/-- The blocks tile the array: entry `(r, s)` lies in the block of the point at `(r / 1024, s / 2048)`. -/
theorem cover (i : S4096x51200.Idx) : ∃ t : Fin cfg0.N, (cfg0.win 2).flush t = true ∧ i ∈ ((cfg0.win 2).blk t).view.set := by
  have hi0 : (i 0).val < 4096 := (i 0).isLt
  have hi1 : (i 1).val < 51200 := (i 1).isLt
  obtain ⟨t, ht⟩ := idx_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- THE ARRAY after the region: the distance matrix of `x` and the padded weight. -/
theorem final (c : Dev nD) : (dats m 0 c).arrAt 2 cfg0.N = padded m c :=
  (dats m 0 c).arrAt_eq_of_cover 2 (padded m c) (fun t _ => flushed_eq m c t) cover

/-- The padded weight is the host's `pad` of the weight by 1200 columns of the converted integer zero. -/
theorem wpad_eq (c : Dev nD) : (wpad m c : S64x51200.Idx → EReal)
    = pad S64x51200 ![0, 0] ![0, 1200] ![0, 0] (m ((c : Thread nD τ).loc main_arg1))
        (sitofp (F := Ideal) .f32 (constantI S_ 32 0#32)) pads_S64x50000_S64x51200_000_012000 h_S_ := by
  dsimp only [wpad, V, V0]
  simp only [hostOps0, hostOps0_1, List.flatten_cons, List.flatten_nil, List.append_nil, List.cons_append, List.nil_append]
  after_results
  rfl

/-- On a column of the weight the padding changes nothing. -/
theorem wpad_apply (c : Dev nD) (d : Fin 64) (k : Fin 50000) (k' : Fin 51200) (hk : k'.val = k.val) :
    wpad m c (ix2 d k') = (m ((c : Thread nD τ).loc main_arg1) : S64x50000.Idx → EReal) (ix2 d k) := by
  rw [wpad_eq]
  refine pad_apply_of_inside _ _ _ _ _ _ _ (ix2 d k') (ix2 d k) fun a => ?_
  match a with
  | ⟨0, _⟩ => show d.val = 0 + d.val * (0 + 1); omega
  | ⟨1, _⟩ => show k'.val = 0 + k.val * (0 + 1); omega

/-- THE RESULT after the host's slice: the distance matrix of `x` and the weight. -/
theorem tail_eq (c : Dev nD) : Pipeline.afterTail₀ cfgs (dats m) 0 (V0 m) [hostOps1] c main_v2 = result m c := by
  have hv1 : Pipeline.withArrays spec0 c (V0 m c) (fun w => (dats m 0 c).arrAt w cfg0.N) (Proc.devRef .tc main_v1) = padded m c :=
    (Pipeline.withArrays_arr spec0 launch0.win.arr_inj c (V0 m c) (fun w => (dats m 0 c).arrAt w cfg0.N) 2).trans (final m c)
  unfold Pipeline.afterTail₀
  show StableHlo.after hostOps1 _ (Proc.devRef .tc main_v2) = _
  after_results
  refine (congrArg (fun v => extractStridedSlice S4096x50000 ![0, 0] v slices_S4096x51200_S4096x50000_0_0) hv1).trans ?_
  funext i
  obtain ⟨b, k, rfl⟩ : ∃ (b : Fin 4096) (k : Fin 50000), i = ix2 b k := ⟨i 0, i 1, eq_ix2 i⟩
  refine (slice2_axis1_apply 0 (padded m c) slices_S4096x51200_S4096x50000_0_0 b k ⟨k.val, by have := k.isLt; omega⟩ (Nat.zero_add _).symm).trans ?_
  exact Cert.Dist.entry_congr (xarr m c) (wpad m c) _ _ b ⟨k.val, by have := k.isLt; omega⟩ b k
    (fun d => congrFun (V_main_arg0 m c) (ix2 b d)) (fun d => wpad_apply m c d k ⟨k.val, by have := k.isLt; omega⟩ rfl)

/-- The run, read: the result at the distance matrix of the arguments, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.Whole

end
-- ==== Proof.RefDist.lean ====
/-
  The reference, read at an entry. Its last stage at row `b` and column `k` is built from three host sums over the
  64 coordinates — the squared norm of row `b` of `x` (a sum from the initial value `0`), the squared norm of column
  `k` of `w` (likewise), and the inner product of the two (a `dot_general` with one contracted axis) — combined as
  sqrt (max (a + c - 2 · p) ε): the distance entry `Cert.Dist.entry x w b k`, the initial zeros dropping out.
-/
import proofs.«102694_j79671643341035_1_alg».proof.Proof.Gen.ReferenceIdeal.Read
import proofs.«102694_j79671643341035_1_alg».proof.Proof.Dist

noncomputable section

namespace Cert.ReferenceIdeal.RefValue

open Cert.ReferenceIdeal Cert.ReferenceIdeal.Gen Cert.ReferenceIdeal.Read Idealize.ShloMosaic Idealize.ShloMosaic.ValueIdx

/-- The reference's result at `(b, k)` is the distance between row `b` of `x` and column `k` of `w`. -/
theorem result_apply (x : (⟨S4096x64, .f32⟩ : BufTy).Contents (Elt Ideal)) (w : (⟨S64x50000, .f32⟩ : BufTy).Contents (Elt Ideal))
    (b : Fin 4096) (k : Fin 50000) :
    val_main_v15 (F := Ideal) x w (ix2 b k) = Cert.Dist.entry x w b k := by
  -- the rows' and columns' norms and the products are read at the coordinates of `(b, k)`
  have er : ∀ d : Fin 64, idx_main_v1 (idx_main_v2 (idx_main_v7 (ix2 b k))) d = ix2 b d := fun d =>
    funext fun a => Fin.ext (by match a with | ⟨0, _⟩ => rfl | ⟨1, _⟩ => rfl)
  have ec : ∀ d : Fin 64, idx_main_v4 (idx_main_v5 (idx_main_v8 (ix2 b k))) d = ix2 d k := fun d =>
    funext fun a => Fin.ext (by match a with | ⟨0, _⟩ => rfl | ⟨1, _⟩ => rfl)
  have el : ∀ d : Fin 64, lidx_main_v6 (ix2 b k) d = ix2 b d := fun d =>
    funext fun a => Fin.ext (by match a with | ⟨0, _⟩ => rfl | ⟨1, _⟩ => rfl)
  have eq : ∀ d : Fin 64, ridx_main_v6 (ix2 b k) d = ix2 d k := fun d =>
    funext fun a => Fin.ext (by match a with | ⟨0, _⟩ => rfl | ⟨1, _⟩ => rfl)
  rw [val_main_v15_apply, val_main_v14_apply, val_main_v12_apply, val_main_v9_apply, val_main_v7_apply, val_main_v2_apply,
    val_main_v1_apply, val_main_v8_apply, val_main_v5_apply, val_main_v4_apply, val_main_v11_apply, val_main_v10_apply,
    val_main_v6_apply, val_main_v13_apply]
  simp only [val_main_v0_apply, val_main_v3_apply, val_main_cst_apply, val_main_cst_0_apply, val_main_cst_1_apply,
    val_main_cst_2_apply, Ideal.hostUnary_sqrt_def, Ideal.maximumf_def, Ideal.subf_def, Ideal.addf_def, Ideal.mulf_def,
    Ideal.ofBits_def, Ideal.ofBits_zero_f32, zero_add, er, ec, el, eq]
  rfl

end Cert.ReferenceIdeal.RefValue

end
-- ==== Proof.lean ====
/- Pairwise Euclidean distances, kernel against reference, on the extended reals.

   Both programs compute, for `x` of 4096 rows and a weight of 50000 columns, each of length 64,
       out[b, k] = sqrt (max (|x_b|² + |w_k|² - 2 · ⟨x_b, w_k⟩) ε)
   with the same words for `2` and for the floor `ε` and the same order of the three operations. The reference takes
   two host sums and one `dot_general` over the 64 coordinates of the whole arrays (Proof/RefDist.lean). The kernel pads the
   weight with 1200 zero columns, computes 1024 × 2048 blocks of a 4096 × 51200 matrix on a 4 × 25 grid — lane sums and a
   matrix product of operands narrowed to bf16, which on the extended reals are the same sums (Proof/Block.lean) — and keeps the
   first 50000 columns. An entry depends on one row of `x` and one column of the weight (Proof/Dist.lean), so every block
   is a block of one matrix, the blocks tile it, and on the kept columns the padded weight is the weight
   (Proof/Whole.lean). No law beyond reindexing finite sums is used, so the inputs' finiteness is never opened.

   The two kernel frames are the generated ones; the reference's frame is its run with the result dropped; the
   idealization rewrote nothing, so `preserves` is trivial. -/
import proofs.«102694_j79671643341035_1_alg».proof.Defs
import proofs.«102694_j79671643341035_1_alg».proof.Proof.Gen.Kernel
import proofs.«102694_j79671643341035_1_alg».proof.Proof.Gen.Kernel.Skeleton
import proofs.«102694_j79671643341035_1_alg».proof.Proof.Gen.Kernel.Launch
import proofs.«102694_j79671643341035_1_alg».proof.Proof.Gen.Kernel.Points
import proofs.«102694_j79671643341035_1_alg».proof.Proof.Gen.Kernel.Frame
import proofs.«102694_j79671643341035_1_alg».proof.Proof.Gen.KernelIdeal
import proofs.«102694_j79671643341035_1_alg».proof.Proof.Gen.KernelIdeal.Skeleton
import proofs.«102694_j79671643341035_1_alg».proof.Proof.Gen.KernelIdeal.Launch
import proofs.«102694_j79671643341035_1_alg».proof.Proof.Gen.KernelIdeal.Points
import proofs.«102694_j79671643341035_1_alg».proof.Proof.Gen.KernelIdeal.Frame
import proofs.«102694_j79671643341035_1_alg».proof.Proof.Gen.ReferenceIdeal
import proofs.«102694_j79671643341035_1_alg».proof.Proof.Gen.Pre_finite_inputs
import proofs.«102694_j79671643341035_1_alg».proof.Proof.Gen.ReferenceIdeal.Run
import proofs.«102694_j79671643341035_1_alg».proof.Proof.Gen.ReferenceIdeal.Read
import proofs.«102694_j79671643341035_1_alg».proof.Proof.Whole
import proofs.«102694_j79671643341035_1_alg».proof.Proof.RefDist
import Idealize.ShloMosaic.Adequacy
import Idealize.ShloMosaic.Init

noncomputable section

namespace Cert.Proof

open Idealize.ShloMosaic Idealize.SL.Sem

/-- Every execution of the reference terminates with its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x` and the weight, the kernel's result and the reference's are both the distance
    matrix of those two arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq _ _).trans ?_
  rw [(hagree c).1, (hagree c).2]
  funext i
  obtain ⟨b, k, rfl⟩ : ∃ (b : Fin 4096) (k : Fin 50000), i = ValueIdx.ix2 b k := ⟨i 0, i 1, ValueIdx.eq_ix2 i⟩
  exact Cert.ReferenceIdeal.RefValue.result_apply _ _ b k

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
